-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024x1024 .f32) (main_arg2 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1x1024, .f32⟩
  | .hbm, ⟨5, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S1024x1024_S1024x1024_1_0 : S1024x1024.Transposes [1, 0] S1024x1024
  shapeCasts_S1024_S1x1024 : S1024.ShapeCasts S1x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x1024.size a
  hwx0_0 : ∀ i : grid0.Coords, EltTy.bits .f32 = 32 ∨ (Rect.block (s := S4096x1024) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S1024x1024.size a
  hwx0_1 : ∀ i : grid0.Coords, EltTy.bits .f32 = 32 ∨ (Rect.block (s := S1024x1024) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x1024.size a
  hwx0_3 : ∀ i : grid0.Coords, EltTy.bits .f32 = 32 ∨ (Rect.block (s := S4096x1024) S512x512.size (cc0_transform_3 i) (hinb0_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.LibMatmulRhsLast.lean ====
/-
  A matrix product whose right operand is contracted on its LAST axis, read at one entry over the extended reals.

  For an `M×K` left operand and an `N×K` right operand (`DotDims.transposedRhs M K N`: both operands contracted on
  their second axis, no batch axis) the product accumulated into the zero splat has, at row `r` and column `c`, the
  entry `∑ k, lhs (r, k) * rhs (c, k)` — the product with the right operand's transpose, without forming it. The
  contraction index, a one-axis multi-index, is re-indexed by its one coordinate `k : Fin K`; the operand indices the
  dimension numbers compute are `(r, k)` and `(c, k)`. Stated for every `M`, `K`, `N`, with the indices built by `ix2`.
-/
import Idealize.ShloMosaic.Lib.ValueIdx
import Idealize.ShloMosaic.PureOps.Ideal.Laws

noncomputable section

namespace Cert.Lib.MatmulRhsLast

open Idealize.ShloMosaic Idealize.ShloMosaic.ValueIdx

variable {M K N : Nat}

/-- The left operand's row coordinate is the result's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction index's one coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's COLUMN: the right operand is read transposed. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction index's one coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- THE ENTRY: an `M×K` by `N×K` product contracted on both second axes, into the zero accumulator, at `(r, c)`, is the
    sum over `k` of `lhs (r, k) * rhs (c, k)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhs_row _ _
      | ⟨1, _⟩ => exact (lhs_col _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhs_row _ _
      | ⟨1, _⟩ => exact (rhs_col _ _).trans hk)
  rw [el, er]

end Cert.Lib.MatmulRhsLast

end
-- ==== Proof.Spec.lean ====
/-
  The affine map both programs compute, and the one law that joins their two arrangements.

  For `x` of 4096 rows and 1024 columns, a square `w` of side 1024 and a vector `b` of length 1024, the result at row
  `r` and column `c` is `∑ k, x (r, k) * w (c, k) + b c`: the rows of `x` against the ROWS of `w` (the product with
  `w` transposed), plus the bias of the column. One program contracts all 1024 terms at once; the other contracts the
  first 512 into a zeroed accumulator, adds the contraction of the last 512, and then the bias. The extended reals are a
  commutative monoid under addition, so a sum over `Fin 1024` splits into its two halves with no condition on the terms
  (no finiteness is used), and adding to zero changes nothing.
-/
import Idealize.ShloMosaic.Lib.ValueIdx
import Idealize.ShloMosaic.PureOps.Ideal

noncomputable section

namespace Cert.Spec

open Idealize.ShloMosaic Idealize.ShloMosaic.ValueIdx

/-- The result array as ONE function of the three argument arrays, index by index. -/
def linear (x : (⟨2, ![4096, 1024]⟩ : Shape).Idx → EReal) (w : (⟨2, ![1024, 1024]⟩ : Shape).Idx → EReal)
    (b : (⟨1, ![1024]⟩ : Shape).Idx → EReal) : (⟨2, ![4096, 1024]⟩ : Shape).Idx → EReal :=
  fun i => (∑ k : Fin 1024, x (ix2 (i 0) k) * w (ix2 (i 1) k)) + b (ix1 (i 1))

/-- Position `k` of the first half of the contraction axis. -/
abbrev lo (k : Fin 512) : Fin 1024 := ⟨k.val, by have := k.isLt; omega⟩
/-- Position `k` of the second half of the contraction axis. -/
abbrev hi (k : Fin 512) : Fin 1024 := ⟨512 + k.val, by have := k.isLt; omega⟩

/-- A sum over the 1024 contraction positions is the sum over the first 512 plus the sum over the last 512. -/
theorem sum_halves (f : Fin 1024 → EReal) : ∑ k : Fin 1024, f k = (∑ k : Fin 512, f (lo k)) + ∑ k : Fin 512, f (hi k) := by
  have h := Fin.sum_univ_add (M := EReal) (a := 512) (b := 512) f
  exact h

/-- The two-step accumulation from zero IS the whole contraction: `(0 + first half) + second half`. -/
theorem acc_halves (f : Fin 1024 → EReal) :
    (0 + ∑ k : Fin 512, f (lo k)) + ∑ k : Fin 512, f (hi k) = ∑ k : Fin 1024, f k := by
  rw [zero_add, sum_halves]

end Cert.Spec

end
-- ==== Proof.KernelSide.lean ====
/-
  What the kernel's result array holds, at the extended reals: the affine map of the three arguments.

  The grid has 8 points; point `t` stages rows `512 t … 512 t + 511` of `x`, the whole of `w` and the whole bias row,
  and writes back rows `512 t … 512 t + 511` of the result. The body's one store holds, at row `p` and column `q` of the
  block, the contraction of row `p` of the `x` block with ROW `q` of `w` (the product contracts both operands on their
  second axis, and the change of format before it is the identity on the extended reals) plus entry `q` of the bias row,
  broadcast down the rows. Read through the blocks that is the specification at row `512 t + p`, column `q`; the eight
  row blocks tile the array, so the array ends holding the specification everywhere.
-/
import proofs.«125259_g2000605864221345_pallasbulk_1315_2_alg».proof.Proof.Gen.KernelIdeal.Value
import proofs.«125259_g2000605864221345_pallasbulk_1315_2_alg».proof.Proof.LibMatmulRhsLast
import proofs.«125259_g2000605864221345_pallasbulk_1315_2_alg».proof.Proof.Spec
import Idealize.ShloMosaic.Lib.Pipeline.Value
import Idealize.ShloMosaic.Lib.StableHlo.Run
import Idealize.ShloMosaic.Lib.ValueIdx

noncomputable section

namespace Cert.KernelIdeal.WholeArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The body's one store at row `p`, column `q` of the block: row `p` of the first operand against row `q` of the second,
    plus entry `q` of the one-row third operand. -/
theorem payload_apply (x0 : Vec Ideal S512x1024 .f32) (x1 : Vec Ideal S1024x1024 .f32) (x2 : Vec Ideal S1x1024 .f32)
    (p : Fin 512) (q : Fin 1024) :
    k0_pay1 x0 x1 x2 (ix2 p q) = (∑ k : Fin 1024, x0 (ix2 p k) * x1 (ix2 q k)) + x2 (ix2 (0 : Fin 1) q) := by
  have hmm : FloatOps.matmul (DotDims.transposedRhs 512 1024 1024) none
      (truncf .bf16 x0 bitsLt_bf16_f32 : FVec Ideal ⟨2, ![512, 1024]⟩ .bf16)
      (truncf .bf16 x1 bitsLt_bf16_f32 : FVec Ideal ⟨2, ![1024, 1024]⟩ .bf16)
      (constant (F := Ideal) ⟨2, ![512, 1024]⟩ .f32 0x00000000#32) (ix2 p q)
      = ∑ k : Fin 1024, x0 (ix2 p k) * x1 (ix2 q k) :=
    Cert.Lib.MatmulRhsLast.matmul_zero_apply none _ _ p q
  have hb : broadcastTo S512x1024 (shapeCast S1x1024 x2 shapeCasts_S1x1024_S1x1024) broadcasts_S1x1024_S512x1024 (ix2 p q)
      = x2 (ix2 (0 : Fin 1) q) := by
    rw [shapeCast_self]
    exact broadcastTo_apply x2 _ (ix2 p q) (ix2 (0 : Fin 1) q) (fun a => by
      match a with
      | ⟨0, _⟩ => rfl
      | ⟨1, _⟩ => rfl)
  exact congrArg₂ (· + ·) hmm hb

/-- The block indices over the grid, decided once: the `x` window moves with the result window down the rows; every
    other block index is zero. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every row block of the result is some point's. -/
theorem index_onto : ∀ q0 : Fin 8, ∃ t : Fin cfg0.N, win0_3.index t = ![q0.val, 0] :=
  (by decide +kernel : ∀ q0 : Fin 8, ∃ t : Fin grid0.N, win0_3.index t = ![q0.val, 0])

/-- The bias row as the region finds it: the host's reshape of the bias vector to one row. -/
theorem bias_row (c : Dev nD) : (V m c main_v0 : S1x1024.Idx → EReal)
    = shapeCast S1x1024 (m ((c : Thread nD τ).loc main_arg2)) shapeCasts_S1024_S1x1024 := by
  dsimp only [Gen.V, Gen.hostOps0]; after_results; rfl

/-- … so its entry `(0, q)` is entry `q` of the bias vector. -/
theorem bias_row_apply (c : Dev nD) (q : Fin 1024) :
    (V m c main_v0 : S1x1024.Idx → EReal) (ix2 (0 : Fin 1) q) = V m c main_arg2 (ix1 q) := by
  rw [bias_row, V_main_arg2]
  exact shapeCast_apply _ _ (ix2 (0 : Fin 1) q) (ix1 q) (by
    rw [Shape.rowMajor_val_one, Shape.rowMajor_val_two]
    show q.val = (0 : Fin 1).val * 1024 + q.val
    simp)

/-- WHAT POINT `t` WRITES BACK is block `t` of the specification of the arrays as the region finds them. -/
theorem flushed_eq (c : Dev nD) (t : Fin cfg0.N) :
    (dats m 0 c).flushed 3 t = ((cfg0.win 3).blk t).view.read (Elt Ideal)
      (Cert.Spec.linear (V m c main_arg0) (V m c main_arg1) (V m c main_arg2)) := by
  rw [Value.flushed3]
  unfold out0_3
  rw [View.canon_unit_zero zero_offsets]
  simp only [View.ld_unit_zero (S := S512x1024) zero_offsets, View.ld_unit_zero (S := S1024x1024) zero_offsets,
    View.ld_unit_zero (S := S1x1024) zero_offsets]
  obtain ⟨e0, e1, e2, e3, e4, e5, e6, e7⟩ := index_facts t
  funext j
  obtain ⟨p, q, rfl⟩ : ∃ (p : Fin 512) (q : Fin 1024), j = ix2 p q := ⟨j 0, j 1, eq_ix2 j⟩
  refine (payload_apply (iblk m c 0 t) (iblk m c 1 t) (iblk m c 2 t) p q).trans ?_
  show _ = Cert.Spec.linear (V m c main_arg0) (V m c main_arg1) (V m c main_arg2) (((cfg0.win 3).blk t).view.emb (ix2 p q))
  unfold Cert.Spec.linear
  have hx : ∀ k : Fin 1024, iblk m c 0 t (ix2 p k)
      = V m c main_arg0 (ix2 ((((cfg0.win 3).blk t).view.emb (ix2 p q)) 0) k) := fun k => by
    show V m c main_arg0 (((cfg0.win 0).blk t).view.emb (ix2 p k)) = _
    refine congrArg (V m c main_arg0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * k.val = k.val; omega
  have hw : ∀ k : Fin 1024, iblk m c 1 t (ix2 q k)
      = V m c main_arg1 (ix2 ((((cfg0.win 3).blk t).view.emb (ix2 p q)) 1) k) := fun k => by
    show V m c main_arg1 (((cfg0.win 1).blk t).view.emb (ix2 q k)) = _
    refine congrArg (V m c main_arg1) (funext fun a => Fin.ext ?_)
    match a with
    | ⟨0, _⟩ => show win0_1.index t (0 : Fin 2) * 1024 + 1 * q.val = win0_3.index t (1 : Fin 2) * 1024 + 1 * q.val; omega
    | ⟨1, _⟩ => show win0_1.index t (1 : Fin 2) * 1024 + 1 * k.val = k.val; omega
  have hb : iblk m c 2 t (ix2 (0 : Fin 1) q)
      = V m c main_arg2 (ix1 ((((cfg0.win 3).blk t).view.emb (ix2 p q)) 1)) := by
    have hrow : iblk m c 2 t (ix2 (0 : Fin 1) q)
        = (V m c main_v0 : S1x1024.Idx → EReal) (ix2 (0 : Fin 1) ((((cfg0.win 3).blk t).view.emb (ix2 p q)) 1)) := by
      show V m c main_v0 (((cfg0.win 2).blk t).view.emb (ix2 (0 : Fin 1) q)) = _
      refine congrArg (V m c main_v0) (funext fun a => Fin.ext ?_)
      match a with
      | ⟨0, _⟩ => show win0_2.index t (0 : Fin 2) * 1 + 1 * (0 : Fin 1).val = (0 : Fin 1).val; simp [e4]
      | ⟨1, _⟩ => show win0_2.index t (1 : Fin 2) * 1024 + 1 * q.val = win0_3.index t (1 : Fin 2) * 1024 + 1 * q.val; omega
    rw [hrow]
    exact bias_row_apply m c _
  rw [hb]
  exact congrArg (· + _) (Finset.sum_congr rfl fun k _ => by rw [hx k, hw k])

/-- An index of the result array is in point `t`'s block iff each coordinate is in the block's range on its axis. -/
theorem mem_block (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1).slice (win0_3.rect t)).set ↔ _
  rw [View.set_slice_whole, Rect.mem_set_unit]
  exact Iff.rfl

/-- THE COVER: row `r` of the result lies in the block of the point whose row-block index is `r / 512`. -/
theorem covered (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := index_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE ARRAY after the run: the specification of the three arguments as launched. -/
theorem final (c : Dev nD) : (dats m 0 c).arrAt 3 cfg0.N
    = Cert.Spec.linear (m ((c : Thread nD τ).loc main_arg0)) (m ((c : Thread nD τ).loc main_arg1)) (m ((c : Thread nD τ).loc main_arg2)) := by
  rw [(dats m 0 c).arrAt_eq_of_cover 3 (Cert.Spec.linear (V m c main_arg0) (V m c main_arg1) (V m c main_arg2))
    (fun t _ => flushed_eq m c t) covered, V_main_arg0, V_main_arg1, V_main_arg2]

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v1)
        = Cert.Spec.linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.WholeArray

end
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.ReferenceSide.lean ====
/-
  What the reference's result array holds, at the extended reals: the affine map of the three arguments.

  The reference is itself a tiled kernel over a grid of 8 × 2 × 2 points `(i, j, k)`, `k` fastest. Point `(i, j, k)` stages the
  512 × 512 block `(i, k)` of `x`, block `(k, j)` of `w` transposed (a host transpose before the region) and block `j` of the
  bias row (a host reshape), and carries a 512 × 512 accumulator between points. At `k = 0` the accumulator is zeroed and
  the block product added; at `k = 1` the second block product is added, and the accumulator plus the bias block is stored
  to the result's block `(i, j)`, which is written back at that point only. So the value written back at `(i, j, 1)` is
  `((0 + first half of the contraction) + second half) + bias`, read through the blocks: the specification at row
  `512 i + p`, column `512 j + q`. The sixteen blocks tile the array.
-/
import proofs.«125259_g2000605864221345_pallasbulk_1315_2_alg».proof.Proof.Gen.ReferenceIdeal.Value
import proofs.«125259_g2000605864221345_pallasbulk_1315_2_alg».proof.Proof.LibPlainMatmul
import proofs.«125259_g2000605864221345_pallasbulk_1315_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.ReferenceIdeal.WholeArray

open Cert.ReferenceIdeal Cert.ReferenceIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## What each case of the body leaves, as terms of its loads -/

/-- A point with `k = 0` leaves in the accumulator the update of the zero block by the point's two input blocks: the
    zeroing store is read back by the update's load. -/
theorem acc_first (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 x1 : Vec Ideal S512x512 .f32) (x2 : Vec Ideal S1x512 .f32) :
    sout0_A_0 c i arg3 harg3 arg4 harg4 arg5 harg5 arg6 harg6 arg7 harg7 hc0 hc1 x0 x1 x2 = k0_pay2 k0_pay1 x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x512) zero_offsets, View.readCov_unit_zero (S := S512x512) _ zero_offsets]
  simp only [View.readAt_eq_ld, harg3.read_unread, harg4.read_unread, View.ld_unit_zero (S := S512x512) zero_offsets]

/-- A point with `k = 1` leaves in the accumulator the update of what the point before left by its two input blocks. -/
theorem acc_second (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 x1 : Vec Ideal S512x512 .f32) (x2 : Vec Ideal S1x512 .f32) (xs0 : Vec Ideal S512x512 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero zero_offsets]
  simp only [View.readAt_eq_ld, harg7.read_unread, harg3.read_unread, harg4.read_unread,
    View.ld_unit_zero (S := S512x512) zero_offsets]

/-- … and in the result's staging buffer that updated accumulator, read back, plus the bias block. -/
theorem out_second (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 x1 : Vec Ideal S512x512 .f32) (x2 : Vec Ideal S1x512 .f32) (xs0 : Vec Ideal S512x512 .f32) :
    out0_B_3 c i arg3 harg3 arg4 harg4 arg5 harg5 arg6 harg6 arg7 harg7 hc0 hc1 x0 x1 x2 xs0 = k0_pay3 (k0_pay2 xs0 x0 x1) x2 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero zero_offsets, View.readCov_unit_zero (S := S512x512) _ zero_offsets]
  simp only [View.readAt_eq_ld, harg7.read_unread, harg3.read_unread, harg4.read_unread, harg5.read_unread,
    View.ld_unit_zero (S := S512x512) zero_offsets, View.ld_unit_zero (S := S1x512) zero_offsets]

/-! ## The same terms at an index, over the extended reals -/

/-- The zero block is zero everywhere. -/
theorem zero_block_apply (p q : Fin 512) : (k0_pay1 : FVec Ideal S512x512 .f32) (ix2 p q) = 0 := by
  unfold k0_pay1
  simp only [shapeCast_self]
  exact Ideal.ofBits_zero_f32

/-- The update: the accumulator's entry plus the block product's entry, row `p` of the left block against column `q`
    of the right block. -/
theorem update_apply (a x0 x1 : Vec Ideal S512x512 .f32) (p q : Fin 512) :
    k0_pay2 a x0 x1 (ix2 p q) = a (ix2 p q) + ∑ k : Fin 512, x0 (ix2 p k) * x1 (ix2 k q) := by
  unfold k0_pay2
  simp only [shapeCast_self]
  exact congrArg (a (ix2 p q) + ·) (Cert.Lib.PlainMatmul.matmul_zero_apply none x0 x1 p q)

/-- The last step: the accumulator's entry plus entry `q` of the one-row bias block, broadcast down the rows. -/
theorem add_bias_apply (a : Vec Ideal S512x512 .f32) (x2 : Vec Ideal S1x512 .f32) (p q : Fin 512) :
    k0_pay3 a x2 (ix2 p q) = a (ix2 p q) + x2 (ix2 (0 : Fin 1) q) := by
  unfold k0_pay3
  simp only [shapeCast_self]
  exact congrArg (a (ix2 p q) + ·) (broadcastTo_apply x2 _ (ix2 p q) (ix2 (0 : Fin 1) q) (fun a => by
    match a with
    | ⟨0, _⟩ => rfl
    | ⟨1, _⟩ => rfl))

/-- What a point with `k = 1` stores to the result's block, from its own input blocks `y0`, `y1`, `x2` and those of the
    point before, `x0`, `x1`: zero, plus the first block product, plus the second, plus the bias. -/
theorem stored_apply (x0 x1 y0 y1 : Vec Ideal S512x512 .f32) (x2 : Vec Ideal S1x512 .f32) (p q : Fin 512) :
    k0_pay3 (k0_pay2 (k0_pay2 k0_pay1 x0 x1) y0 y1) x2 (ix2 p q)
      = ((0 + ∑ k : Fin 512, x0 (ix2 p k) * x1 (ix2 k q)) + ∑ k : Fin 512, y0 (ix2 p k) * y1 (ix2 k q))
        + x2 (ix2 (0 : Fin 1) q) := by
  rw [add_bias_apply, update_apply, update_apply, zero_block_apply]

/-! ## The arrays the host prepares before the region -/

/-- The second operand's array as the region finds it: the host's transpose of the weight. -/
theorem weight_transposed (c : Dev nD) : (V m c main_v0 : S1024x1024.Idx → EReal)
    = transpose S1024x1024 [1, 0] (m ((c : Thread nD τ).loc main_arg1)) transposes_S1024x1024_S1024x1024_1_0 := by
  dsimp only [Gen.V, Gen.hostOps0]; after_results

/-- … so its entry `(a, b)` is the weight's entry `(b, a)`. -/
theorem weight_transposed_apply (c : Dev nD) (a b : Fin 1024) :
    (V m c main_v0 : S1024x1024.Idx → EReal) (ix2 a b) = V m c main_arg1 (ix2 b a) := by
  rw [weight_transposed, V_main_arg1]
  exact transpose_apply _ _ _ (ix2 a b) (ix2 b a) (fun d => by
    match d with
    | ⟨0, _⟩ => rfl
    | ⟨1, _⟩ => rfl)

/-- The bias row as the region finds it: the host's reshape of the bias vector to one row. -/
theorem bias_row (c : Dev nD) : (V m c main_v1 : S1x1024.Idx → EReal)
    = shapeCast S1x1024 (m ((c : Thread nD τ).loc main_arg2)) shapeCasts_S1024_S1x1024 := by
  dsimp only [Gen.V, Gen.hostOps0]; after_results; rfl

/-- … so its entry `(0, q)` is entry `q` of the bias vector. -/
theorem bias_row_apply (c : Dev nD) (q : Fin 1024) :
    (V m c main_v1 : S1x1024.Idx → EReal) (ix2 (0 : Fin 1) q) = V m c main_arg2 (ix1 q) := by
  rw [bias_row, V_main_arg2]
  exact shapeCast_apply _ _ (ix2 (0 : Fin 1) q) (ix1 q) (by
    rw [Shape.rowMajor_val_one, Shape.rowMajor_val_two]
    show q.val = (0 : Fin 1).val * 1024 + q.val
    simp)

/-! ## What a writing point writes back -/

/-- The input blocks at a point, at their literal types. -/
abbrev xblk (c : Dev nD) (t : Fin cfg0.N) : Vec Ideal S512x512 .f32 := iblk m c 0 t
abbrev wblk (c : Dev nD) (t : Fin cfg0.N) : Vec Ideal S512x512 .f32 := iblk m c 1 t
abbrev bblk (c : Dev nD) (t : Fin cfg0.N) : Vec Ideal S1x512 .f32 := iblk m c 2 t

/-- The point before `t` in grid order. -/
abbrev prev (t : Fin cfg0.N) : Fin cfg0.N := ⟨t.val - 1, Nat.lt_of_le_of_lt (Nat.sub_le _ _) t.isLt⟩

/-- At a point with `k = 1` the write-back writes the stored term of that point's blocks and of the blocks of the point
    before it, which has `k = 0` and so started the accumulator afresh. -/
theorem flushed_value (c : Dev nD) (t : Fin cfg0.N) (h1 : t.val % 2 = 1) :
    (dats m 0 c).flushed 3 t = (cfg0.win 3).cut (grid0.coords t)
      (k0_pay3 (k0_pay2 (k0_pay2 k0_pay1 (xblk m c (prev t)) (wblk m c (prev t))) (xblk m c t) (wblk m c t)) (bblk m c t)) := by
  have h0 : ¬t.val % 2 = 0 := by omega
  have hp0 : (prev t).val % 2 = 0 := by show (t.val - 1) % 2 = 0; omega
  have hp1 : ¬(prev t).val % 2 = 1 := by show ¬(t.val - 1) % 2 = 1; omega
  rw [Value.flushed3_B m c t h0 h1, outsAt0_A m c (prev t) hp0 hp1]
  dsimp only
  rw [out_second, acc_first]

/-- The block indices over the grid, decided once, at a point `t` with `k = 1` and the point `t'` before it: the `x` blocks
    are on the result's block row, at block columns 0 then 1; the transposed weight's blocks are on the result's block
    column, at block rows 0 then 1; the bias block is on the result's block column. -/
theorem index_facts : ∀ t t' : Fin cfg0.N, t.val % 2 = 1 → t'.val + 1 = t.val →
    win0_0.index t (0 : Fin 2) = win0_3.index t (0 : Fin 2) ∧ win0_0.index t (1 : Fin 2) = 1
    ∧ win0_1.index t (0 : Fin 2) = 1 ∧ win0_1.index t (1 : Fin 2) = win0_3.index t (1 : Fin 2)
    ∧ win0_2.index t (0 : Fin 2) = 0 ∧ win0_2.index t (1 : Fin 2) = win0_3.index t (1 : Fin 2)
    ∧ win0_0.index t' (0 : Fin 2) = win0_3.index t (0 : Fin 2) ∧ win0_0.index t' (1 : Fin 2) = 0
    ∧ win0_1.index t' (0 : Fin 2) = 0 ∧ win0_1.index t' (1 : Fin 2) = win0_3.index t (1 : Fin 2)
    ∧ win0_3.index t (0 : Fin 2) ≤ 7 ∧ win0_3.index t (1 : Fin 2) ≤ 1 :=
  (by decide +kernel : ∀ t t' : Fin grid0.N, _)

/-- Every block of the result is the block of some point with `k = 1`. -/
theorem index_onto : ∀ (q0 : Fin 8) (q1 : Fin 2), ∃ t : Fin cfg0.N, t.val % 2 = 1 ∧ win0_3.index t = ![q0.val, q1.val] :=
  (by decide +kernel : ∀ (q0 : Fin 8) (q1 : Fin 2), ∃ t : Fin grid0.N, t.val % 2 = 1 ∧ win0_3.index t = ![q0.val, q1.val])

/-- WHAT A WRITING POINT WRITES BACK is its block of the specification of the arrays as the region finds them. -/
theorem flushed_eq (c : Dev nD) (t : Fin cfg0.N) (hf : (cfg0.win 3).flush t = true) :
    (dats m 0 c).flushed 3 t = ((cfg0.win 3).blk t).view.read (Elt Ideal)
      (Cert.Spec.linear (V m c main_arg0) (V m c main_arg1) (V m c main_arg2)) := by
  have h1 : t.val % 2 = 1 := (flush0_3 t).mp hf
  have hN : t.val < 32 := lt_of_lt_of_eq t.isLt (show cfg0.N = 32 from N_0)
  rw [flushed_value m c t h1]
  obtain ⟨e0, e1, e2, e3, e4, e5, e6, e7, e8, e9, e10, e11⟩ :=
    index_facts t (prev t) h1 (by show t.val - 1 + 1 = t.val; omega)
  funext j
  obtain ⟨p, q, rfl⟩ : ∃ (p : Fin 512) (q : Fin 512), j = ix2 p q := ⟨j 0, j 1, eq_ix2 j⟩
  refine (stored_apply (xblk m c (prev t)) (wblk m c (prev t)) (xblk m c t) (wblk m c t) (bblk m c t) p q).trans ?_
  show _ = Cert.Spec.linear (V m c main_arg0) (V m c main_arg1) (V m c main_arg2) (((cfg0.win 3).blk t).view.emb (ix2 p q))
  unfold Cert.Spec.linear
  rw [← Cert.Spec.acc_halves]
  have hx0 : ∀ k : Fin 512, xblk m c (prev t) (ix2 p k)
      = V m c main_arg0 (ix2 ((((cfg0.win 3).blk t).view.emb (ix2 p q)) 0) (Cert.Spec.lo k)) := fun k => by
    show V m c main_arg0 (((cfg0.win 0).blk (prev t)).view.emb (ix2 p k)) = _
    refine congrArg (V m c main_arg0) (funext fun a => Fin.ext ?_)
    match a with
    | ⟨0, _⟩ => show win0_0.index (prev t) (0 : Fin 2) * 512 + 1 * p.val = win0_3.index t (0 : Fin 2) * 512 + 1 * p.val; omega
    | ⟨1, _⟩ => show win0_0.index (prev t) (1 : Fin 2) * 512 + 1 * k.val = k.val; omega
  have hx1 : ∀ k : Fin 512, xblk m c t (ix2 p k)
      = V m c main_arg0 (ix2 ((((cfg0.win 3).blk t).view.emb (ix2 p q)) 0) (Cert.Spec.hi k)) := fun k => by
    show V m c main_arg0 (((cfg0.win 0).blk t).view.emb (ix2 p k)) = _
    refine congrArg (V m c main_arg0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 512 + 1 * k.val = 512 + k.val; omega
  have hw0 : ∀ k : Fin 512, wblk m c (prev t) (ix2 k q)
      = V m c main_arg1 (ix2 ((((cfg0.win 3).blk t).view.emb (ix2 p q)) 1) (Cert.Spec.lo k)) := fun k => by
    refine Eq.trans ?_ (weight_transposed_apply m c (Cert.Spec.lo k) ((((cfg0.win 3).blk t).view.emb (ix2 p q)) 1))
    show V m c main_v0 (((cfg0.win 1).blk (prev t)).view.emb (ix2 k q)) = _
    refine congrArg (V m c main_v0) (funext fun a => Fin.ext ?_)
    match a with
    | ⟨0, _⟩ => show win0_1.index (prev t) (0 : Fin 2) * 512 + 1 * k.val = k.val; omega
    | ⟨1, _⟩ => show win0_1.index (prev t) (1 : Fin 2) * 512 + 1 * q.val = win0_3.index t (1 : Fin 2) * 512 + 1 * q.val; omega
  have hw1 : ∀ k : Fin 512, wblk m c t (ix2 k q)
      = V m c main_arg1 (ix2 ((((cfg0.win 3).blk t).view.emb (ix2 p q)) 1) (Cert.Spec.hi k)) := fun k => by
    refine Eq.trans ?_ (weight_transposed_apply m c (Cert.Spec.hi k) ((((cfg0.win 3).blk t).view.emb (ix2 p q)) 1))
    show V m c main_v0 (((cfg0.win 1).blk t).view.emb (ix2 k q)) = _
    refine congrArg (V m c main_v0) (funext fun a => Fin.ext ?_)
    match a with
    | ⟨0, _⟩ => show win0_1.index t (0 : Fin 2) * 512 + 1 * k.val = 512 + k.val; omega
    | ⟨1, _⟩ => show win0_1.index t (1 : Fin 2) * 512 + 1 * q.val = win0_3.index t (1 : Fin 2) * 512 + 1 * q.val; omega
  have hb : bblk m c t (ix2 (0 : Fin 1) q)
      = V m c main_arg2 (ix1 ((((cfg0.win 3).blk t).view.emb (ix2 p q)) 1)) := by
    refine Eq.trans ?_ (bias_row_apply m c ((((cfg0.win 3).blk t).view.emb (ix2 p q)) 1))
    show V m c main_v1 (((cfg0.win 2).blk t).view.emb (ix2 (0 : Fin 1) q)) = _
    refine congrArg (V m c main_v1) (funext fun a => Fin.ext ?_)
    match a with
    | ⟨0, _⟩ => show win0_2.index t (0 : Fin 2) * 1 + 1 * (0 : Fin 1).val = (0 : Fin 1).val; simp [e4]
    | ⟨1, _⟩ => show win0_2.index t (1 : Fin 2) * 512 + 1 * q.val = win0_3.index t (1 : Fin 2) * 512 + 1 * q.val; omega
  rw [hb]
  refine congrArg (· + _) (congrArg₂ (· + ·) (congrArg (0 + ·) (Finset.sum_congr rfl fun k _ => ?_))
    (Finset.sum_congr rfl fun k _ => ?_))
  · rw [hx0 k, hw0 k]
  · rw [hx1 k, hw1 k]

/-- An index of the result array is in point `t`'s block iff each coordinate is in the block's range on its axis. -/
theorem mem_block (t : Fin cfg0.N) (i : S4096x1024.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v2).slice (win0_3.rect t)).set ↔ _
  rw [View.set_slice_whole, Rect.mem_set_unit]
  exact Iff.rfl

/-- THE COVER: entry `(r, s)` of the result lies in the block of the writing point whose block indices are
    `(r / 512, s / 512)`. -/
theorem covered (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, hodd, ht⟩ := index_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, (flush0_3 t).mpr hodd, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE ARRAY after the run: the specification of the three arguments as launched. -/
theorem final (c : Dev nD) : (dats m 0 c).arrAt 3 cfg0.N
    = Cert.Spec.linear (m ((c : Thread nD τ).loc main_arg0)) (m ((c : Thread nD τ).loc main_arg1)) (m ((c : Thread nD τ).loc main_arg2)) := by
  rw [(dats m 0 c).arrAt_eq_of_cover 3 (Cert.Spec.linear (V m c main_arg0) (V m c main_arg1) (V m c main_arg2))
    (flushed_eq m c) covered, V_main_arg0, V_main_arg1, V_main_arg2]

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v2)
        = Cert.Spec.linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.ReferenceIdeal.WholeArray

end
-- ==== Proof.lean ====
/-
  A linear layer with bias, `y = x · wᵀ + b`, for `x` of 4096 rows and 1024 columns, a square weight `w` of side 1024 and
  a bias `b` of length 1024: the kernel against its reference, over the extended reals.

  The kernel runs over 8 row blocks of 512 rows. At each it contracts all 1024 columns of the `x` block against the
  ROWS of `w` in one product (its dimension numbers contract both operands on their second axis; the narrowing of the
  operands to a shorter float format before the product is the identity on the extended reals) and adds the bias row.
  The reference transposes `w` on the host and is itself a tiled kernel over 8 × 2 × 2 blocks of side 512 with the
  contraction axis last: it zeroes an accumulator at the first contraction block, adds each of the two block products,
  and at the second adds the bias block and writes the result's block. At row `r`, column `c` both give
  `∑ k, x (r, k) * w (c, k) + b c` (Proof/Spec.lean): the reference's `(0 + ∑ first 512) + ∑ last 512` is the whole sum
  because addition of extended reals is associative with zero its unit — no finiteness of the inputs is needed, and the
  precondition is never opened.

  Proof/KernelSide.lean and Proof/ReferenceSide.lean each show that their program's result array ends at that one
  function of the arguments; here the two runs are set side by side. The idealization rewrote nothing, so the
  kernel's idealized program is its own text read at the extended reals.
-/
import proofs.«125259_g2000605864221345_pallasbulk_1315_2_alg».proof.Defs
import proofs.«125259_g2000605864221345_pallasbulk_1315_2_alg».proof.Proof.Gen.Kernel
import proofs.«125259_g2000605864221345_pallasbulk_1315_2_alg».proof.Proof.Gen.Kernel.Frame
import proofs.«125259_g2000605864221345_pallasbulk_1315_2_alg».proof.Proof.Gen.KernelIdeal
import proofs.«125259_g2000605864221345_pallasbulk_1315_2_alg».proof.Proof.Gen.KernelIdeal.Frame
import proofs.«125259_g2000605864221345_pallasbulk_1315_2_alg».proof.Proof.Gen.ReferenceIdeal
import proofs.«125259_g2000605864221345_pallasbulk_1315_2_alg».proof.Proof.Gen.ReferenceIdeal.Frame
import proofs.«125259_g2000605864221345_pallasbulk_1315_2_alg».proof.Proof.Gen.Pre_finite_inputs
import proofs.«125259_g2000605864221345_pallasbulk_1315_2_alg».proof.Proof.KernelSide
import proofs.«125259_g2000605864221345_pallasbulk_1315_2_alg».proof.Proof.ReferenceSide
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- So does the reference, at the extended reals. -/
theorem frame_reference_ideal : Cert.frame_ReferenceIdeal := fun m ρ _ => Cert.ReferenceIdeal.Gen.frame m ρ

/-- No operation of the kernel was rewritten for the reading at the extended reals. -/
theorem preserves : Cert.preserves_Kernel_KernelIdeal := trivial

/-- From memories that agree on the three arguments both programs end with the result array at
    `∑ k, x (r, k) * w (c, k) + b c` of those arguments, and the arguments unchanged. -/
theorem algebraic : Cert.algebraic_KernelIdeal_ReferenceIdeal := by
  intro m ρ m' ρ' _ hagree
  refine ⟨fun c => Cert.Spec.linear
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.WholeArray.run m ρ, ?_⟩
  refine (θ_run Cert.ReferenceIdeal.defs _ _).mono (fun _ h c => ⟨(h c).1.trans ?_, (h c).2⟩)
    (Cert.ReferenceIdeal.WholeArray.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
